-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x512x24x12 : Shape := ⟨5, ![32, 8, 512, 24, 12]⟩
abbrev S32 : Shape := ⟨1, ![32]⟩
abbrev S_ : Shape := ⟨0, ![]⟩

class Facts : Prop where
  bcast_S_S32x8x512x24x12 : S_.BroadcastsInDim S32x8x512x24x12 (![] : Fin 0 → Fin S32x8x512x24x12.rank)
  reducesTo_S32x8x512x24x12_S_d0_1_2_3_4 : S32x8x512x24x12.ReducesTo [0, 1, 2, 3, 4] S_
  h_S_ : 0 < S_.numel

variable [Facts]

def fn {F : FTy → Type} [FloatOps F] (main_arg0 : FVec F S32x8x512x24x12 .f32) (main_arg1 : IVec S32 32) : IVec S_ 1 :=
  let main_v0 : FVec F S32x8x512x24x12 .f32 := Host.absf main_arg0
  let main_cst : FVec F S_ .f32 := constant S_ .f32 0x7F800000#32
  let main_v1 : FVec F S32x8x512x24x12 .f32 := broadcastInDim S32x8x512x24x12 ![] bcast_S_S32x8x512x24x12 main_cst
  let main_v2 : IVec S32x8x512x24x12 1 := cmpf .olt main_v0 main_v1
  let main_c : IVec S_ 1 := constantI S_ 1 1#1
  let main_v3 : IVec S_ 1 := (fun x v => Host.reduce IntOp.andi x v reducesTo_S32x8x512x24x12_S_d0_1_2_3_4 h_S_) main_v2 main_c
  main_v3
-- ==== Kernel.lean ====
abbrev S32x8x512x24x12 : Shape := ⟨5, ![32, 8, 512, 24, 12]⟩
abbrev S32 : Shape := ⟨1, ![32]⟩
abbrev S256x512x288 : Shape := ⟨3, ![256, 512, 288]⟩
abbrev S256x288 : Shape := ⟨2, ![256, 288]⟩
abbrev S8x512x288 : Shape := ⟨3, ![8, 512, 288]⟩
abbrev S8x288 : Shape := ⟨2, ![8, 288]⟩
abbrev S32x8x288 : Shape := ⟨3, ![32, 8, 288]⟩
abbrev S32x1 : Shape := ⟨2, ![32, 1]⟩
abbrev S32x8 : Shape := ⟨2, ![32, 8]⟩
abbrev S32x8x1 : Shape := ⟨3, ![32, 8, 1]⟩
abbrev S32x1x288 : Shape := ⟨3, ![32, 1, 288]⟩
abbrev S32x288 : Shape := ⟨2, ![32, 288]⟩
abbrev S32x1x1 : Shape := ⟨3, ![32, 1, 1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S32x8x512x24x12, .f32⟩
  | .hbm, ⟨1, _⟩ => ⟨S32, .i32⟩
  | .hbm, ⟨2, _⟩ => ⟨S256x512x288, .f32⟩
  | .hbm, ⟨3, _⟩ => ⟨S256x288, .f32⟩
  | .hbm, ⟨4, _⟩ => ⟨S32x8x288, .f32⟩
  | .hbm, ⟨5, _⟩ => ⟨S32x1, .f32⟩
  | .hbm, ⟨6, _⟩ => ⟨S_, .f32⟩
  | .hbm, ⟨7, _⟩ => ⟨S_, .f32⟩
  | .local _ .vmem, ⟨0, _⟩ => ⟨S8x512x288, .f32⟩
  | .local _ .vmem, ⟨1, _⟩ => ⟨S8x512x288, .f32⟩
  | .local _ .vmem, ⟨2, _⟩ => ⟨S8x288, .f32⟩
  | .local _ .vmem, ⟨3, _⟩ => ⟨S8x288, .f32⟩
  | .local _ .vmem, ⟨4, _⟩ => ⟨S32x8x288, .f32⟩
  | .local _ .vmem, ⟨5, _⟩ => ⟨S32x1, .f32⟩
  | _, _ => ⟨S32x8x512x24x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x8x288 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S32x8x512x24x12_S256x512x288 : S32x8x512x24x12.ShapeCasts S256x512x288
  inb_S8x512x288_S8x512x288_0_0_0 : ∀ a, (![0, 0, 0] : Fin 3 → Nat) a + S8x512x288.size a ≤ S8x512x288.size a
  h_S8x512x288 : 0 < S8x512x288.numel
  shapeCasts_S8x512x288_S8x512x288 : S8x512x288.ShapeCasts S8x512x288
  reduces_S8x512x288_S8x288 : S8x512x288.Reduces [1] S8x288
  inb_S8x288_S8x288_0_0 : ∀ a, (![0, 0] : Fin 2 → Nat) a + S8x288.size a ≤ S8x288.size a
  h_S8x288 : 0 < S8x288.numel
  shapeCasts_S256x288_S32x8x288 : S256x288.ShapeCasts S32x8x288
  inb_S32x8x288_S32x8x288_0_0_0 : ∀ a, (![0, 0, 0] : Fin 3 → Nat) a + S32x8x288.size a ≤ S32x8x288.size a
  h_S32x8x288 : 0 < S32x8x288.numel
  shapeCasts_S32x8x288_S32x8x288 : S32x8x288.ShapeCasts S32x8x288
  reduces_S32x8x288_S32x8 : S32x8x288.Reduces [2] S32x8
  shapeCasts_S32x8_S32x8x1 : S32x8.ShapeCasts S32x8x1
  broadcasts_S32x8x1_S32x8x288 : S32x8x1.Broadcasts S32x8x288
  slices_S32x8x288_o0_0_0_S32x1x288 : S32x8x288.Slices ![0, 0, 0] S32x1x288
  shapeCasts_S32x1x288_S32x288 : S32x1x288.ShapeCasts S32x288
  slices_S32x8x288_o0_1_0_S32x1x288 : S32x8x288.Slices ![0, 1, 0] S32x1x288
  reduces_S32x288_S32 : S32x288.Reduces [1] S32
  shapeCasts_S32_S32x1 : S32.ShapeCasts S32x1
  slices_S32x8x288_o0_2_0_S32x1x288 : S32x8x288.Slices ![0, 2, 0] S32x1x288
  slices_S32x8x288_o0_3_0_S32x1x288 : S32x8x288.Slices ![0, 3, 0] S32x1x288
  slices_S32x8x288_o0_4_0_S32x1x288 : S32x8x288.Slices ![0, 4, 0] S32x1x288
  slices_S32x8x288_o0_5_0_S32x1x288 : S32x8x288.Slices ![0, 5, 0] S32x1x288
  slices_S32x8x288_o0_6_0_S32x1x288 : S32x8x288.Slices ![0, 6, 0] S32x1x288
  slices_S32x8x288_o0_7_0_S32x1x288 : S32x8x288.Slices ![0, 7, 0] S32x1x288
  reduces_S32x8x1_S32x1 : S32x8x1.Reduces [1] S32x1
  shapeCasts_S32x1_S32x1x1 : S32x1.ShapeCasts S32x1x1
  shapeCasts_S32x1x1_S32x1 : S32x1x1.ShapeCasts S32x1
  inb_S32x1_S32x1_0_0 : ∀ a, (![0, 0] : Fin 2 → Nat) a + S32x1.size a ≤ S32x1.size a
  h_S32x1 : 0 < S32x1.numel
  reducesTo_S32x1_S_d0_1 : S32x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x288.size a ≤ S256x512x288.size a
  hwx0_0 : ∀ i : grid0.Coords, EltTy.bits .f32 = 32 ∨ (Rect.block (s := S256x512x288) S8x512x288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x288.size a ≤ S256x288.size a
  hwx0_1 : ∀ i : grid0.Coords, EltTy.bits .f32 = 32 ∨ (Rect.block (s := S256x288) S8x288.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x8x288.size a ≤ S32x8x288.size a
  hwx1_0 : ∀ i : grid1.Coords, EltTy.bits .f32 = 32 ∨ (Rect.block (s := S32x8x288) S32x8x288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)

variable [Facts₀]

abbrev win0_0 : Pipeline.Window sig grid0 :=
  Pipeline.Window.ofSpec (Memref.whole main_v0) S8x512x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x288.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S32x8x288.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S32x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S32x8x512x24x12 : Shape := ⟨5, ![32, 8, 512, 24, 12]⟩
abbrev S32 : Shape := ⟨1, ![32]⟩
abbrev S_ : Shape := ⟨0, ![]⟩
abbrev S32x8x24x12 : Shape := ⟨4, ![32, 8, 24, 12]⟩
abbrev S32x8x288 : Shape := ⟨3, ![32, 8, 288]⟩
abbrev S32x8 : Shape := ⟨2, ![32, 8]⟩
abbrev S32x8x1 : Shape := ⟨3, ![32, 8, 1]⟩
abbrev S32x8x1x288 : Shape := ⟨4, ![32, 8, 1, 288]⟩
abbrev S32x1x8x288 : Shape := ⟨4, ![32, 1, 8, 288]⟩
abbrev S32x8x8x288 : Shape := ⟨4, ![32, 8, 8, 288]⟩
abbrev S32x8x8 : Shape := ⟨3, ![32, 8, 8]⟩
abbrev S8x8 : Shape := ⟨2, ![8, 8]⟩
abbrev S1x8x8 : Shape := ⟨3, ![1, 8, 8]⟩

abbrev nBuf : Space → Nat
  | .hbm => 47
  | .vmem => 0
  | .smem => 0
  | _ => 0

abbrev bufTy : (tb : Table) → Fin (tcTables nBuf tb) → BufTy
  | .hbm, ⟨0, _⟩ => ⟨S32x8x512x24x12, .f32⟩
  | .hbm, ⟨1, _⟩ => ⟨S32, .i32⟩
  | .hbm, ⟨2, _⟩ => ⟨S32x8x512x24x12, .f32⟩
  | .hbm, ⟨3, _⟩ => ⟨S_, .f32⟩
  | .hbm, ⟨4, _⟩ => ⟨S32x8x24x12, .f32⟩
  | .hbm, ⟨5, _⟩ => ⟨S32x8x288, .f32⟩
  | .hbm, ⟨6, _⟩ => ⟨S32x8x288, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S32x8x288, .f32⟩
  | .hbm, ⟨15, _⟩ => ⟨S32x8x288, .f32⟩
  | .hbm, ⟨16, _⟩ => ⟨S32x8x1x288, .f32⟩
  | .hbm, ⟨17, _⟩ => ⟨S32x1x8x288, .f32⟩
  | .hbm, ⟨18, _⟩ => ⟨S32x8x8x288, .f32⟩
  | .hbm, ⟨19, _⟩ => ⟨S32x8x8x288, .f32⟩
  | .hbm, ⟨20, _⟩ => ⟨S32x8x8x288, .f32⟩
  | .hbm, ⟨21, _⟩ => ⟨S_, .f32⟩
  | .hbm, ⟨22, _⟩ => ⟨S32x8x8, .f32⟩
  | .hbm, ⟨23, _⟩ => ⟨S_, .f32⟩
  | .hbm, ⟨24, _⟩ => ⟨S8x8, .f32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S_, .f32⟩
  | .hbm, ⟨32, _⟩ => ⟨S8x8, .f32⟩
  | .hbm, ⟨33, _⟩ => ⟨S8x8, .f32⟩
  | .hbm, ⟨34, _⟩ => ⟨S1x8x8, .f32⟩
  | .hbm, ⟨35, _⟩ => ⟨S32x8x8, .f32⟩
  | .hbm, ⟨36, _⟩ => ⟨S32x8x8, .f32⟩
  | .hbm, ⟨37, _⟩ => ⟨S_, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S_, .f32⟩
  | _, _ => ⟨S32x8x512x24x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩

abbrev nD : Nat := 1
abbrev τ : Topo := Topo.v7x

variable {F : FTy → Type} [FloatOps F]

class Facts₀ : Prop where
  reducesTo_S32x8x512x24x12_S32x8x24x12_d2 : S32x8x512x24x12.ReducesTo [2] S32x8x24x12
  h_S_ : 0 < S_.numel
  shapeCasts_S32x8x24x12_S32x8x288 : S32x8x24x12.ShapeCasts S32x8x288
  reducesTo_S32x8x288_S32x8_d2 : S32x8x288.ReducesTo [2] S32x8
  bcast_S32x8_S32x8x1_0_1 : S32x8.BroadcastsInDim S32x8x1 (![0, 1] : Fin 2 → Fin S32x8x1.rank)
  bcast_S_S32x8x1 : S_.BroadcastsInDim S32x8x1 (![] : Fin 0 → Fin S32x8x1.rank)
  bcast_S32x8x1_S32x8x288_0_1_2 : S32x8x1.BroadcastsInDim S32x8x288 (![0, 1, 2] : Fin 3 → Fin S32x8x288.rank)
  bcast_S32x8x288_S32x8x1x288_0_1_3 : S32x8x288.BroadcastsInDim S32x8x1x288 (![0, 1, 3] : Fin 3 → Fin S32x8x1x288.rank)
  bcast_S32x8x288_S32x1x8x288_0_2_3 : S32x8x288.BroadcastsInDim S32x1x8x288 (![0, 2, 3] : Fin 3 → Fin S32x1x8x288.rank)
  bcast_S32x8x1x288_S32x8x8x288_0_1_2_3 : S32x8x1x288.BroadcastsInDim S32x8x8x288 (![0, 1, 2, 3] : Fin 4 → Fin S32x8x8x288.rank)
  bcast_S32x1x8x288_S32x8x8x288_0_1_2_3 : S32x1x8x288.BroadcastsInDim S32x8x8x288 (![0, 1, 2, 3] : Fin 4 → Fin S32x8x8x288.rank)
  reducesTo_S32x8x8x288_S32x8x8_d3 : S32x8x8x288.ReducesTo [3] S32x8x8
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S32x8x8_0_1_2 : S1x8x8.BroadcastsInDim S32x8x8 (![0, 1, 2] : Fin 3 → Fin S32x8x8.rank)
  reducesTo_S32x8x8_S32_d1_2 : S32x8x8.ReducesTo [1, 2] S32
  reducesTo_S32x8x288_S32_d1_2 : S32x8x288.ReducesTo [1, 2] S32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.Spec.lean ====
/-
  The separation score, as one function on the extended reals.

  From an input x[b, p, c, h, w] (32 samples, 8 parts, 512 channels, a 24 × 12 map read as 288 sites s = 12 h + w):
    energy   E[b, p, s]   = Σ_c x[b, p, c, s]²
    norm     N[b, p]      = max (√ Σ_s E[b, p, s]²) floor               (floor the f32 word of 1e-12, shared by both programs)
    unit map U[b, p, s]   = E[b, p, s] / N[b, p]
    overlap  O[b, j, k]   = Σ_s min (U[b, j, s]) (U[b, k, s])
    pair sum P[b]         = Σ_{j < k} O[b, j, k]
    mass     M[b]         = Σ_p Σ_s U[b, p, s]
    ratio    R[b]         = P[b] / max M[b] floor
    score                 = Σ_b R[b]
  Every operation is the extended reals' own (sum, product, min, max; the quotient and the root are the ideal
  instance's total functions), so no finiteness is needed anywhere: sums commute and associate on the extended
  reals, and a product with the words 0 or 1 is 0 or the other factor.
-/
import Idealize.ShloMosaic.PureOps.Ideal
import Idealize.ShloMosaic.PureOps.Ideal.Laws
import Idealize.ShloMosaic.Lib.ValueIdx

noncomputable section

namespace Cert.Sep

open Idealize.ShloMosaic Idealize.ShloMosaic.ValueIdx

/-- The clamp both programs apply to a norm and to a mass: the f32 word of 1e-12, kept as a word. -/
def floor : EReal := Ideal.ofBits .f32 0x2B8CBCCC#32

/-- Site s of the 288 is row s / 12, column s % 12 of the 24 × 12 map. -/
def siteRow (s : Fin 288) : Fin 24 := ⟨s.val / 12, by have := s.isLt; omega⟩
def siteCol (s : Fin 288) : Fin 12 := ⟨s.val % 12, Nat.mod_lt _ (by decide)⟩

/-- The channel energy of part p of sample b at site s. -/
def energy (x : (⟨5, ![32, 8, 512, 24, 12]⟩ : Shape).Idx → EReal) (b : Fin 32) (p : Fin 8) (s : Fin 288) : EReal :=
  ∑ c : Fin 512, x (ix5 b p c (siteRow s) (siteCol s)) * x (ix5 b p c (siteRow s) (siteCol s))

variable (E : Fin 32 → Fin 8 → Fin 288 → EReal)

/-- The clamped Euclidean norm of a part's energy map. -/
def norm (b : Fin 32) (p : Fin 8) : EReal := max (Ideal.sqrt (∑ s : Fin 288, E b p s * E b p s)) floor

/-- The part's map divided by its clamped norm. -/
def unit (b : Fin 32) (p : Fin 8) (s : Fin 288) : EReal := Ideal.div (E b p s) (norm E b p)

/-- How much two parts' unit maps overlap: the sum over the sites of the smaller of the two. -/
def overlap (b : Fin 32) (j k : Fin 8) : EReal := ∑ s : Fin 288, min (unit E b j s) (unit E b k s)

/-- The overlaps of the 28 pairs j < k, added up. -/
def pairSum (b : Fin 32) : EReal := ∑ j : Fin 8, ∑ k : Fin 8, if j < k then overlap E b j k else 0

/-- The total of a sample's unit maps. -/
def mass (b : Fin 32) : EReal := ∑ p : Fin 8, ∑ s : Fin 288, unit E b p s

/-- A sample's pair sum over its clamped mass. -/
def ratio (b : Fin 32) : EReal := Ideal.div (pairSum E b) (max (mass E b) floor)

/-- The score: the samples' ratios added up. -/
def score : EReal := ∑ b : Fin 32, ratio E b

end Cert.Sep

end
-- ==== Proof.ScoreRegion.lean ====
/-
  The second region and the host sum after it, read off the run's fold.

  The second region's grid has ONE point; its input block is the whole 32 × 8 × 288 array it is entered with and its output
  block the whole 32 × 1 array it leaves. So what the region's write-back leaves is the body's result on the whole input
  array, and the program's result is the host's sum of those 32 entries from the zero word.
-/
import proofs.«155840_j46866683133955_1_alg».proof.Proof.Gen.KernelIdeal.Frame
import Idealize.ShloMosaic.Lib.Pipeline.Value
import Idealize.ShloMosaic.Lib.StableHlo.Run

set_option maxRecDepth 16384

noncomputable section

namespace Cert.KernelIdeal.ScoreRegion

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The one point's block indices are all zero, for both windows. -/
theorem block_indices : ∀ t : Fin cfg1.N, win1_0.index t (0 : Fin 3) = 0 ∧ win1_0.index t (1 : Fin 3) = 0
    ∧ win1_0.index t (2 : Fin 3) = 0 ∧ win1_1.index t (0 : Fin 2) = 0 ∧ win1_1.index t (1 : Fin 2) = 0 :=
  (by decide +kernel : ∀ t : Fin grid1.N, _)

/-- The input block at the one point is the whole array the region is entered with. -/
theorem input_block_whole (c : Dev nD) (t : Fin cfg1.N) : iblk1 (V3 m ρ) c 0 t = V3 m ρ c main_v2 := by
  obtain ⟨e0, e1, e2, -, -⟩ := block_indices t
  funext y
  show V3 m ρ c main_v2 (((cfg1.win 0).blk t).view.emb y) = V3 m ρ c main_v2 y
  refine congrArg _ (funext fun a => Fin.ext ?_)
  match a with
  | ⟨0, _⟩ => show win1_0.index t (0 : Fin 3) * 32 + 1 * (y 0).val = (y 0).val; omega
  | ⟨1, _⟩ => show win1_0.index t (1 : Fin 3) * 8 + 1 * (y 1).val = (y 1).val; omega
  | ⟨2, _⟩ => show win1_0.index t (2 : Fin 3) * 288 + 1 * (y 2).val = (y 2).val; omega

/-- What the one point writes back is the body's result on the whole input array, read through the whole output block. -/
theorem written_back (c : Dev nD) (t : Fin cfg1.N) :
    (dat1 (V3 m ρ) c).flushed 1 t = ((cfg1.win 1).blk t).view.read (Elt F) (out1_1 (V3 m ρ c main_v2)) := by
  show (cfg1.win 1).cut (grid1.coords t) ((dat1 (V3 m ρ) c).after 1 t) = _
  rw [after1_1, input_block_whole]
  obtain ⟨-, -, -, e3, e4⟩ := block_indices t
  funext j
  show out1_1 (V3 m ρ c main_v2) _ = out1_1 (V3 m ρ c main_v2) (((cfg1.win 1).blk t).view.emb j)
  refine congrArg _ (funext fun a => Fin.ext ?_)
  match a with
  | ⟨0, _⟩ => show (j 0).val = win1_1.index t (0 : Fin 2) * 32 + 1 * (j 0).val; omega
  | ⟨1, _⟩ => show (j 1).val = win1_1.index t (1 : Fin 2) * 1 + 1 * (j 1).val; omega

/-- Every index of the 32 × 1 array lies in a point's block: the block is the whole array. -/
theorem mem_block (t : Fin cfg1.N) (i : S32x1.Idx) : i ∈ ((cfg1.win 1).blk t).view.set := by
  obtain ⟨-, -, -, e3, e4⟩ := block_indices t
  show i ∈ ((View.whole main_v3).slice (win1_1.rect t)).set
  rw [View.set_slice_whole, Rect.mem_set_unit]
  intro a
  have h0 : (i 0).val < 32 := (i 0).isLt
  have h1 : (i 1).val < 1 := (i 1).isLt
  match a with
  | ⟨0, _⟩ => show win1_1.index t (0 : Fin 2) * 32 ≤ (i 0).val ∧ (i 0).val < win1_1.index t (0 : Fin 2) * 32 + 32; omega
  | ⟨1, _⟩ => show win1_1.index t (1 : Fin 2) * 1 ≤ (i 1).val ∧ (i 1).val < win1_1.index t (1 : Fin 2) * 1 + 1; omega

theorem covered (i : S32x1.Idx) :
    ∃ t : Fin cfg1.N, (cfg1.win 1).flush t = true ∧ i ∈ ((cfg1.win 1).blk t).view.set :=
  ⟨⟨0, by decide⟩, flush1_1 _, mem_block _ i⟩

/-- The 32 × 1 array after the second region: the body's result on the array the region was entered with. -/
theorem ratios_array (c : Dev nD) : (dat1 (V3 m ρ) c).arrAt 1 cfg1.N = out1_1 (V3 m ρ c main_v2) :=
  (dat1 (V3 m ρ) c).arrAt_eq_of_cover 1 (out1_1 (V3 m ρ c main_v2)) (fun t _ => written_back m ρ c t) (covered)

/-- The result buffer at the end of the run: the host's sum, from the zero word, of the array the second region left. -/
theorem result_fold (c : Dev nD) :
    W5 m ρ c (Proc.devRef .tc main_v4)
      = Host.reduceAdd (out1_1 (V3 m ρ c main_v2)) (constant (F := F) S_ .f32 0x00000000#32) reducesTo_S32x1_S_d0_1 h_S_ := by
  rw [← ratios_array m ρ c, ← W4_arr m ρ c 1]
  show StableHlo.after hostOps2 (W4 m ρ c) (Proc.devRef .tc main_v4) = _
  after_results

end Cert.KernelIdeal.ScoreRegion

end
-- ==== Proof.ResultSum.lean ====
/-
  The program's result at the ideal instance: the host's sum over the 32 × 1 array, from the zero word, is the sum over the
  32 samples of the array's entry at (b, 0) — a total sum over a rank-2 index set split by coordinates, the second of extent one.
-/
import proofs.«155840_j46866683133955_1_alg».proof.Proof.ScoreRegion
import Idealize.ShloMosaic.PureOps.Ideal.Laws
import Idealize.ShloMosaic.Lib.ValueIdx

noncomputable section

namespace Cert.KernelIdeal.ResultSum

open Cert.KernelIdeal Cert.KernelIdeal.Gen
open Idealize.ShloMosaic Idealize.ShloMosaic.TcCoe Idealize.ShloMosaic.ValueIdx
open Idealize.SL Idealize.SL.Sem

/-- The host's total sum of a 32 × 1 array from the zero word is the sum of its 32 entries. -/
theorem total_of_column (y : FVec Ideal S32x1 .f32) (i : S_.Idx) :
    Host.reduceAdd (F := Ideal) y (constant (F := Ideal) S_ .f32 0x00000000#32) reducesTo_S32x1_S_d0_1 h_S_ i
      = ∑ b : Fin 32, y (ix2 b (0 : Fin 1)) := by
  simp only [Host.reduceAdd, Ideal.hostReduceAdd_def]
  refine (Ideal.hostReduceAdd_total reducesTo_S32x1_S_d0_1 (fun b => b.elim0) y _ i).trans ?_
  show Ideal.ofBits .f32 0x00000000#32 + _ = _
  rw [Ideal.ofBits_zero_f32, zero_add, sum_idx2]
  exact Finset.sum_congr rfl fun b _ => Fin.sum_univ_one _

variable (m : (ℓ : Loc nD τ sig) → Buf (Elt Ideal) ℓ) (ρ : Dev nD → PrngReg)

/-- The result buffer at the end of the run, at the ideal instance: the sum over the samples of what the second region's
    body leaves at (b, 0) from the array it was entered with. -/
theorem result_sum (c : Dev nD) (i : S_.Idx) :
    W5 (F := Ideal) m ρ c (Proc.devRef .tc main_v4) i
      = ∑ b : Fin 32, out1_1 (F := Ideal) (V3 (F := Ideal) m ρ c main_v2) (ix2 b (0 : Fin 1)) := by
  rw [ScoreRegion.result_fold]
  exact total_of_column _ i

end Cert.KernelIdeal.ResultSum

end
-- ==== Proof.PairBody.lean ====
/-
  The second kernel's body, read at one sample.

  The body takes a 32 × 8 × 288 block X (sample b, part p, site s) and leaves a 32 × 1 column through one store over
  the whole column. Read at sample b, what it stores is

      ( Σ_{j < k} Σ_s min (U[b, j, s]) (U[b, k, s]) )  /  max ( Σ_p Σ_s U[b, p, s] ) floor,

  where U[b, p, s] = X[b, p, s] / max (√ Σ_s X[b, p, s]²) floor is the part's map over its clamped Euclidean norm:
  the specification's ratio of the block, with the block as the energy.

  How it is read.
    * Layout operations move no value. A slice of one part, a cast that adds or drops a unit axis, a broadcast along
      the sites: each is read at an index by naming the operand's index by its coordinates, the row-major positions
      agreeing by linear arithmetic.
    * A sum over the sites (or over the parts) is the Fin-indexed sum of the extended reals.
    * The numerator is a running 32 × 1 sum that starts at the word 0 and takes the 28 overlaps one after the other,
      in lexicographic order (0,1), (0,2), …, (6,7). One step — the accumulator plus the site sum of the minimum of
      two rows — is one lemma, generic in the two rows; the body's five stretches of 4, 7, 7, 6 and 4 steps are
      chains of it, each stretch handing its accumulator (and a minimum or a slice already taken) to the next.
    * The left-nested chain of 28 terms from 0 is the double sum over j and k of "overlap if j < k, else 0": both run
      in the same order, so only the zeros and the association differ.
    * The denominator sums the unit map over the sites, then over the parts, through three casts, and clamps.
-/
import proofs.«155840_j46866683133955_1_alg».proof.Proof.Spec
import proofs.«155840_j46866683133955_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.PairBody

open Idealize.ShloMosaic Idealize.ShloMosaic.ValueIdx
open Cert.KernelIdeal Cert.KernelIdeal.Gen
open scoped BigOperators

/-- The sum over the sites of a 32 × 8 × 288 array, read at sample b and part p. -/
theorem laneSum3_apply (v : FVec Ideal S32x8x288 .f32) (h : S32x8x288.Reduces [2] S32x8)
    (hφ : FKind.Formats .f32) (hacc : (0x00000000#32 : BitVec 32) = 0x00000000#32) (b : Fin 32) (p : Fin 8) :
    multiReduction (F := Ideal) .add [2] S32x8 v 0x00000000#32 h hφ hacc (ix2 b p)
      = ∑ s : Fin 288, v (ix3 b p s) := by
  refine (Ideal.multiReduction_add_single v 0x00000000#32 h hφ hacc (ix2 b p)).trans ?_
  refine Finset.sum_congr rfl fun s _ => congrArg v ?_
  funext a; match a with | ⟨0,_⟩ => rfl | ⟨1,_⟩ => rfl | ⟨2,_⟩ => rfl

section Casts
variable {α : Type}

/-- A 32 × 8 array cast to 32 × 8 × 1 reads, at (b, p, u), the operand at (b, p). -/
theorem cast_32x8_32x8x1 (x : S32x8.Idx → α) (h : S32x8.ShapeCasts S32x8x1) (b : Fin 32) (p : Fin 8) (u : Fin 1) :
    shapeCast S32x8x1 x h (ix3 b p u) = x (ix2 b p) :=
  shapeCast_apply x h _ _ (by
    have hu : u.val = 0 := by omega
    rw [Shape.rowMajor_val_three, Shape.rowMajor_val_two]
    show b.val * 8 + p.val = (b.val * 8 + p.val) * 1 + u.val
    omega)

/-- A 32 × 1 × 288 array cast to 32 × 288 reads, at (b, s), the operand at (b, 0, s). -/
theorem cast_32x1x288_32x288 (x : S32x1x288.Idx → α) (h : S32x1x288.ShapeCasts S32x288) (b : Fin 32) (s : Fin 288) :
    shapeCast S32x288 x h (ix2 b s) = x (ix3 b (0 : Fin 1) s) :=
  shapeCast_apply x h _ _ (by
    rw [Shape.rowMajor_val_three, Shape.rowMajor_val_two]
    show (b.val * 1 + 0) * 288 + s.val = b.val * 288 + s.val
    omega)

/-- A 32-vector cast to 32 × 1 reads, at (b, q), the operand at b. -/
theorem cast_32_32x1 (x : S32.Idx → α) (h : S32.ShapeCasts S32x1) (b : Fin 32) (q : Fin 1) :
    shapeCast S32x1 x h (ix2 b q) = x (ix1 b) :=
  shapeCast_apply x h _ _ (by
    have hq : q.val = 0 := by omega
    rw [Shape.rowMajor_val_two, Shape.rowMajor_val_one]
    show b.val = b.val * 1 + q.val
    omega)

/-- A 32 × 1 array cast to 32 × 1 × 1 reads, at (b, u, w), the operand at (b, 0). -/
theorem cast_32x1_32x1x1 (x : S32x1.Idx → α) (h : S32x1.ShapeCasts S32x1x1) (b : Fin 32) (u w : Fin 1) :
    shapeCast S32x1x1 x h (ix3 b u w) = x (ix2 b (0 : Fin 1)) :=
  shapeCast_apply x h _ _ (by
    have hu : u.val = 0 := by omega
    have hw : w.val = 0 := by omega
    rw [Shape.rowMajor_val_three, Shape.rowMajor_val_two]
    show b.val * 1 + 0 = (b.val * 1 + u.val) * 1 + w.val
    omega)

/-- A 32 × 1 × 1 array cast to 32 × 1 reads, at (b, q), the operand at (b, 0, 0). -/
theorem cast_32x1x1_32x1 (x : S32x1x1.Idx → α) (h : S32x1x1.ShapeCasts S32x1) (b : Fin 32) (q : Fin 1) :
    shapeCast S32x1 x h (ix2 b q) = x (ix3 b (0 : Fin 1) (0 : Fin 1)) :=
  shapeCast_apply x h _ _ (by
    have hq : q.val = 0 := by omega
    rw [Shape.rowMajor_val_three, Shape.rowMajor_val_two]
    show (b.val * 1 + 0) * 1 + 0 = b.val * 1 + q.val
    omega)

end Casts

/-- The unit map at an index: the map at (b, p, s) over the clamped root of the sum of its squares over the sites. -/
theorem unit_apply (v0 : Vec Ideal S32x8x288 .f32) (b : Fin 32) (p : Fin 8) (s : Fin 288) :
    k1_pay2 (F := Ideal) v0 (ix3 b p s) = Cert.Sep.unit (fun b p s => v0 (ix3 b p s)) b p s := by
  unfold k1_pay2
  dsimp only
  rw [shapeCast_self]
  show Ideal.div (v0 (ix3 b p s)) _ = Ideal.div (v0 (ix3 b p s)) _
  refine congrArg (Ideal.div (v0 (ix3 b p s))) ?_
  refine (broadcastTo_apply _ _ (ix3 b p s) (ix3 b p (0 : Fin 1)) ?_).trans ?_
  · intro a
    match a with
    | ⟨0, _⟩ => rfl
    | ⟨1, _⟩ => rfl
    | ⟨2, _⟩ => rfl
  show max (Ideal.sqrt (shapeCast S32x8x1 _ _ (ix3 b p (0 : Fin 1)))) (Ideal.ofBits .f32 0x2B8CBCCC#32) = max (Ideal.sqrt _) Cert.Sep.floor
  refine congrArg (fun t => max (Ideal.sqrt t) Cert.Sep.floor) ?_
  refine (cast_32x8_32x8x1 _ _ b p 0).trans ?_
  refine (laneSum3_apply _ _ _ _ b p).trans ?_
  rfl

/-- A row slice at offsets (0, j, 0) stays inside the 8 parts. -/
theorem row_lt {j : ℕ} (h : S32x8x288.Slices ![0, j, 0] S32x1x288) : j < 8 := by
  have h1 : j + 1 ≤ 8 := h.2 1
  omega

/-- Row j of a 32 × 8 × 288 array, sliced out and cast to 32 × 288, reads at (b, s) the array at (b, j, s). -/
theorem row_apply {α : Type} (v : S32x8x288.Idx → α) (j : ℕ) (h : S32x8x288.Slices ![0, j, 0] S32x1x288)
    (hc : S32x1x288.ShapeCasts S32x288) (b : Fin 32) (s : Fin 288) :
    shapeCast S32x288 (extractStridedSlice S32x1x288 ![0, j, 0] v h) hc (ix2 b s) = v (ix3 b ⟨j, row_lt h⟩ s) := by
  refine (cast_32x1x288_32x288 _ hc b s).trans ?_
  refine extractStridedSlice_apply _ v h _ _ fun a => ?_
  match a with
  | ⟨0, _⟩ => show b.val = 0 + b.val; omega
  | ⟨1, _⟩ => show j = j + 0; omega
  | ⟨2, _⟩ => show s.val = 0 + s.val; omega

/-- The sum over the sites of a 32 × 288 array, read at sample b. -/
theorem laneSum2_apply (m : FVec Ideal S32x288 .f32) (h : S32x288.Reduces [1] S32)
    (hφ : FKind.Formats .f32) (hacc : (0x00000000#32 : BitVec 32) = 0x00000000#32) (b : Fin 32) :
    multiReduction (F := Ideal) .add [1] S32 m 0x00000000#32 h hφ hacc (ix1 b) = ∑ s : Fin 288, m (ix2 b s) := by
  refine (Ideal.multiReduction_add_single m 0x00000000#32 h hφ hacc (ix1 b)).trans ?_
  refine Finset.sum_congr rfl fun s _ => congrArg m ?_
  funext a; match a with | ⟨0,_⟩ => rfl | ⟨1,_⟩ => rfl

/-- Adding to a 32 × 1 accumulator the site sums of a 32 × 288 array. -/
theorem addRow_apply (acc : FVec Ideal S32x1 .f32) (m : FVec Ideal S32x288 .f32) (h : S32x288.Reduces [1] S32)
    (hφ : FKind.Formats .f32) (hacc : (0x00000000#32 : BitVec 32) = 0x00000000#32)
    (hc : S32.ShapeCasts S32x1) (b : Fin 32) (q : Fin 1) :
    addf acc (shapeCast S32x1 (multiReduction (F := Ideal) .add [1] S32 m 0x00000000#32 h hφ hacc) hc) (ix2 b q)
      = acc (ix2 b q) + ∑ s : Fin 288, m (ix2 b s) := by
  show acc (ix2 b q) + shapeCast S32x1 _ hc (ix2 b q) = _
  refine congrArg (acc (ix2 b q) + ·) ?_
  exact (cast_32_32x1 _ hc b q).trans (laneSum2_apply m h hφ hacc b)

/-- How much rows j and k of a 32 × 8 × 288 array overlap at sample b. -/
def ov (v : FVec Ideal S32x8x288 .f32) (b : Fin 32) (j k : Fin 8) : EReal :=
  ∑ s : Fin 288, min (v (ix3 b j s)) (v (ix3 b k s))

/-- One step of the running sum: the accumulator plus the overlap of rows j and k. -/
theorem pairStep (acc : FVec Ideal S32x1 .f32) (v : FVec Ideal S32x8x288 .f32) (j k : ℕ)
    (hj : S32x8x288.Slices ![0, j, 0] S32x1x288) (hk : S32x8x288.Slices ![0, k, 0] S32x1x288)
    (hcj hck : S32x1x288.ShapeCasts S32x288) (h : S32x288.Reduces [1] S32)
    (hφ : FKind.Formats .f32) (hacc : (0x00000000#32 : BitVec 32) = 0x00000000#32)
    (hc : S32.ShapeCasts S32x1) (b : Fin 32) (q : Fin 1) :
    addf acc (shapeCast S32x1 (multiReduction (F := Ideal) .add [1] S32
        (minimumf (shapeCast S32x288 (extractStridedSlice S32x1x288 ![0, j, 0] v hj) hcj)
                  (shapeCast S32x288 (extractStridedSlice S32x1x288 ![0, k, 0] v hk) hck))
        0x00000000#32 h hφ hacc) hc) (ix2 b q)
      = acc (ix2 b q) + ov v b ⟨j, row_lt hj⟩ ⟨k, row_lt hk⟩ := by
  refine (addRow_apply acc _ h hφ hacc hc b q).trans ?_
  refine congrArg (acc (ix2 b q) + ·) ?_
  refine Finset.sum_congr rfl fun s _ => ?_
  show min (shapeCast S32x288 _ hcj (ix2 b s)) (shapeCast S32x288 _ hck (ix2 b s)) = _
  rw [row_apply v j hj hcj b s, row_apply v k hk hck b s]

/-- The step with the accumulator's value named: what a chain of steps is proved by, innermost accumulator last. -/
theorem pairStep' (acc : FVec Ideal S32x1 .f32) (v : FVec Ideal S32x8x288 .f32) (j k : ℕ)
    (hj : S32x8x288.Slices ![0, j, 0] S32x1x288) (hk : S32x8x288.Slices ![0, k, 0] S32x1x288)
    (hcj hck : S32x1x288.ShapeCasts S32x288) (h : S32x288.Reduces [1] S32)
    (hφ : FKind.Formats .f32) (hacc : (0x00000000#32 : BitVec 32) = 0x00000000#32)
    (hc : S32.ShapeCasts S32x1) (b : Fin 32) (q : Fin 1) {A : EReal} (hA : acc (ix2 b q) = A) :
    addf acc (shapeCast S32x1 (multiReduction (F := Ideal) .add [1] S32
        (minimumf (shapeCast S32x288 (extractStridedSlice S32x1x288 ![0, j, 0] v hj) hcj)
                  (shapeCast S32x288 (extractStridedSlice S32x1x288 ![0, k, 0] v hk) hck))
        0x00000000#32 h hφ hacc) hc) (ix2 b q)
      = A + ov v b ⟨j, row_lt hj⟩ ⟨k, row_lt hk⟩ :=
  hA ▸ pairStep acc v j k hj hk hcj hck h hφ hacc hc b q

/-- The first part: from zero, the overlaps of part 0 with parts 1 to 4. -/
theorem pay3_apply (v0 : Vec Ideal S32x8x288 .f32) (b : Fin 32) (q : Fin 1) :
    k1_pay3 (F := Ideal) v0 (ix2 b q)
      = 0 + ov (k1_pay2 v0) b 0 1 + ov (k1_pay2 v0) b 0 2 + ov (k1_pay2 v0) b 0 3 + ov (k1_pay2 v0) b 0 4 := by
  unfold k1_pay3
  dsimp only
  repeat refine pairStep' _ _ _ _ _ _ _ _ _ _ _ _ b q ?_
  exact Ideal.ofBits_zero_f32

/-- The second part: the overlaps (0,5) … (0,7) and (1,2) … (1,5) on top of what came in. -/
theorem pay5_apply (v0 : Vec Ideal S32x8x288 .f32) (acc : FVec Ideal S32x1 .f32) (b : Fin 32) (q : Fin 1) :
    k1_pay5 (F := Ideal) (k1_pay2 v0) acc (k1_pay4 v0) (ix2 b q)
      = acc (ix2 b q) + ov (k1_pay2 v0) b 0 5 + ov (k1_pay2 v0) b 0 6 + ov (k1_pay2 v0) b 0 7
          + ov (k1_pay2 v0) b 1 2 + ov (k1_pay2 v0) b 1 3 + ov (k1_pay2 v0) b 1 4 + ov (k1_pay2 v0) b 1 5 := by
  unfold k1_pay5 k1_pay4
  dsimp only
  repeat refine pairStep' _ _ _ _ _ _ _ _ _ _ _ _ b q ?_
  rfl

/-- The third part: the overlaps (1,6), (1,7) and (2,3) … (2,7) on top of what came in. -/
theorem pay8_apply (v9 : FVec Ideal S32x8x288 .f32) (acc : FVec Ideal S32x1 .f32) (b : Fin 32) (q : Fin 1) :
    k1_pay8 (F := Ideal) v9 acc (k1_pay6 v9) (k1_pay7 v9) (ix2 b q)
      = acc (ix2 b q) + ov v9 b 1 6 + ov v9 b 1 7
          + ov v9 b 2 3 + ov v9 b 2 4 + ov v9 b 2 5 + ov v9 b 2 6 + ov v9 b 2 7 := by
  unfold k1_pay8 k1_pay6 k1_pay7
  dsimp only
  repeat refine pairStep' _ _ _ _ _ _ _ _ _ _ _ _ b q ?_
  rfl

/-- The fourth part: the overlaps (3,4) … (3,7), (4,5) and (4,6) on top of what came in. -/
theorem pay9_apply (v9 : FVec Ideal S32x8x288 .f32) (acc : FVec Ideal S32x1 .f32) (b : Fin 32) (q : Fin 1) :
    k1_pay9 (F := Ideal) v9 acc (ix2 b q)
      = acc (ix2 b q) + ov v9 b 3 4 + ov v9 b 3 5 + ov v9 b 3 6 + ov v9 b 3 7
          + ov v9 b 4 5 + ov v9 b 4 6 := by
  unfold k1_pay9
  dsimp only
  repeat refine pairStep' _ _ _ _ _ _ _ _ _ _ _ _ b q ?_
  rfl

/-- The sum over the parts of a 32 × 8 × 1 array, read at (b, u). -/
theorem partSum_apply (m : FVec Ideal S32x8x1 .f32) (h : S32x8x1.Reduces [1] S32x1)
    (hφ : FKind.Formats .f32) (hacc : (0x00000000#32 : BitVec 32) = 0x00000000#32) (b : Fin 32) (u : Fin 1) :
    multiReduction (F := Ideal) .add [1] S32x1 m 0x00000000#32 h hφ hacc (ix2 b u) = ∑ p : Fin 8, m (ix3 b p u) := by
  refine (Ideal.multiReduction_add_single m 0x00000000#32 h hφ hacc (ix2 b u)).trans ?_
  refine Finset.sum_congr rfl fun p _ => congrArg m ?_
  funext a; match a with | ⟨0,_⟩ => rfl | ⟨1,_⟩ => rfl | ⟨2,_⟩ => rfl

/-- The total of a 32 × 8 × 288 array over parts and sites, as the body takes it: sites first, then parts, through
    three casts that move no value. -/
theorem total_apply (v : FVec Ideal S32x8x288 .f32) (h2 : S32x8x288.Reduces [2] S32x8) (c1 : S32x8.ShapeCasts S32x8x1)
    (h1 : S32x8x1.Reduces [1] S32x1) (c2 : S32x1.ShapeCasts S32x1x1) (c3 : S32x1x1.ShapeCasts S32x1)
    (hφ hφ' : FKind.Formats .f32) (hacc hacc' : (0x00000000#32 : BitVec 32) = 0x00000000#32) (b : Fin 32) (q : Fin 1) :
    shapeCast S32x1 (shapeCast S32x1x1 (multiReduction (F := Ideal) .add [1] S32x1
        (shapeCast S32x8x1 (multiReduction (F := Ideal) .add [2] S32x8 v 0x00000000#32 h2 hφ hacc) c1)
        0x00000000#32 h1 hφ' hacc') c2) c3 (ix2 b q)
      = ∑ p : Fin 8, ∑ s : Fin 288, v (ix3 b p s) := by
  refine (cast_32x1x1_32x1 _ c3 b q).trans ?_
  refine (cast_32x1_32x1x1 _ c2 b 0 0).trans ?_
  refine (partSum_apply _ h1 hφ' hacc' b 0).trans ?_
  refine Finset.sum_congr rfl fun p _ => ?_
  refine (cast_32x8_32x8x1 _ c1 b p 0).trans ?_
  exact laneSum3_apply v h2 hφ hacc b p

/-- The last part: the overlaps (4,7), (5,6), (5,7), (6,7) on top of what came in, over the clamped total. -/
theorem pay1_apply (v9 : FVec Ideal S32x8x288 .f32) (acc : FVec Ideal S32x1 .f32) (b : Fin 32) (q : Fin 1) :
    k1_pay1 (F := Ideal) v9 acc (k1_pay10 v9) (ix2 b q)
      = Ideal.div (acc (ix2 b q) + ov v9 b 4 7 + ov v9 b 5 6 + ov v9 b 5 7 + ov v9 b 6 7)
          (max (∑ p : Fin 8, ∑ s : Fin 288, v9 (ix3 b p s)) Cert.Sep.floor) := by
  unfold k1_pay1 k1_pay10
  dsimp only
  show Ideal.div _ (max (shapeCast S32x1 _ _ (ix2 b q)) (Ideal.ofBits .f32 0x2B8CBCCC#32)) = _
  refine congrArg₂ Ideal.div ?_ (congrArg (max · Cert.Sep.floor) (total_apply v9 _ _ _ _ _ _ _ _ _ b q))
  repeat refine pairStep' _ _ _ _ _ _ _ _ _ _ _ _ b q ?_
  rfl

/-- The overlaps of the unit map's rows are the specification's overlaps. -/
theorem ov_unit (v0 : Vec Ideal S32x8x288 .f32) (b : Fin 32) (j k : Fin 8) :
    ov (k1_pay2 (F := Ideal) v0) b j k = Cert.Sep.overlap (fun b p s => v0 (ix3 b p s)) b j k := by
  unfold ov Cert.Sep.overlap
  refine Finset.sum_congr rfl fun s _ => ?_
  rw [unit_apply, unit_apply]

/-- The 28 overlaps added one after the other from zero, in lexicographic order, are the double sum over j < k. -/
theorem chain_eq_pairSum (E : Fin 32 → Fin 8 → Fin 288 → EReal) (b : Fin 32) :
    0 + Cert.Sep.overlap E b 0 1 + Cert.Sep.overlap E b 0 2 + Cert.Sep.overlap E b 0 3 + Cert.Sep.overlap E b 0 4
      + Cert.Sep.overlap E b 0 5 + Cert.Sep.overlap E b 0 6 + Cert.Sep.overlap E b 0 7
      + Cert.Sep.overlap E b 1 2 + Cert.Sep.overlap E b 1 3 + Cert.Sep.overlap E b 1 4 + Cert.Sep.overlap E b 1 5
      + Cert.Sep.overlap E b 1 6 + Cert.Sep.overlap E b 1 7
      + Cert.Sep.overlap E b 2 3 + Cert.Sep.overlap E b 2 4 + Cert.Sep.overlap E b 2 5 + Cert.Sep.overlap E b 2 6
      + Cert.Sep.overlap E b 2 7
      + Cert.Sep.overlap E b 3 4 + Cert.Sep.overlap E b 3 5 + Cert.Sep.overlap E b 3 6 + Cert.Sep.overlap E b 3 7
      + Cert.Sep.overlap E b 4 5 + Cert.Sep.overlap E b 4 6 + Cert.Sep.overlap E b 4 7
      + Cert.Sep.overlap E b 5 6 + Cert.Sep.overlap E b 5 7
      + Cert.Sep.overlap E b 6 7
      = Cert.Sep.pairSum E b := by
  simp only [Cert.Sep.pairSum, Fin.sum_univ_eight, Fin.reduceLT, ↓reduceIte, zero_add, add_zero, add_assoc]

/-- The store's and the load's offsets are all zero. -/
theorem hz2 : (![0, 0] : Fin 2 → Nat) = fun _ => 0 :=
  funext fun a => match a with | ⟨0, _⟩ => rfl | ⟨1, _⟩ => rfl
theorem hz3 : (![0, 0, 0] : Fin 3 → Nat) = fun _ => 0 :=
  funext fun a => match a with | ⟨0, _⟩ => rfl | ⟨1, _⟩ => rfl | ⟨2, _⟩ => rfl

/-- What the body leaves at sample b: the pair sum of the unit maps of the block over their clamped mass. -/
theorem out1_1_apply (x0 : Vec Ideal S32x8x288 .f32) (b : Fin 32) (q : Fin 1) :
    out1_1 (F := Ideal) x0 (ix2 b q) = Cert.Sep.ratio (fun b p s => x0 (ix3 b p s)) b := by
  unfold out1_1
  rw [View.canon_unit_zero hz2]
  simp only [View.ld_unit_zero (S := S32x8x288) hz3]
  rw [pay1_apply, pay9_apply, pay8_apply, pay5_apply, pay3_apply]
  simp only [ov_unit]
  unfold Cert.Sep.ratio
  refine congrArg₂ Ideal.div (chain_eq_pairSum _ b) (congrArg (max · Cert.Sep.floor) ?_)
  unfold Cert.Sep.mass
  refine Finset.sum_congr rfl fun p _ => Finset.sum_congr rfl fun s _ => ?_
  exact unit_apply x0 b p s

end Cert.KernelIdeal.PairBody

end
-- ==== Proof.EnergyRegion.lean ====
/-
  The energy map the first kernel region leaves for the second.

  The input x[b, p, c, h, w] (32 samples, 8 parts, 512 channels, a 24 × 12 map) is first read as a 256 × 512 × 288
  array A: row R = 8 b + p, channel c, site s = 12 h + w, the same row-major position. The region then walks the 256 rows
  in 32 blocks of 8: at point t it takes rows 8 t … 8 t + 7 of A, squares every entry, adds the squares over the 512
  channels, and writes the 8 × 288 result back as rows 8 t … 8 t + 7 of a 256 × 288 array. Each row is written by exactly
  the point R / 8, so the array ends as ONE function of A,
      G[R, s] = Σ_c A[R, c, s]²,
  and reading that array as 32 × 8 × 288 (again the same row-major position, (b, p, s) ↦ (8 b + p, s)) gives
      E[b, p, s] = Σ_c x[b, p, c, s / 12, s % 12]²,
  the channel energy of the specification. The steps below: the body's payload at an index (a sum over one axis of a
  pointwise square); a block of A through the payload is a block of G; every index of the 256 × 288 array is in the
  block of some point that writes it back; the two reshapes read at an index by comparing row-major positions.
-/
import proofs.«155840_j46866683133955_1_alg».proof.Proof.Spec
import proofs.«155840_j46866683133955_1_alg».proof.Proof.Gen.KernelIdeal.Frame
import Idealize.ShloMosaic.Lib.Pipeline.Value
import Idealize.ShloMosaic.PureOps.Ideal.Laws
import Idealize.ShloMosaic.Lib.ValueIdx

set_option maxRecDepth 16384

noncomputable section

namespace Cert.KernelIdeal.EnergyRegion

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The body's payload at an index -/

/-- Row r, site s of what the body stores: the block's squares summed over the 512 channels. -/
theorem pay_apply (x0 : Vec Ideal S8x512x288 .f32) (r : Fin 8) (s : Fin 288) :
    k0_pay1 (F := Ideal) x0 (ix2 r s) = ∑ k : Fin 512, x0 (ix3 r k s) * x0 (ix3 r k s) := by
  unfold k0_pay1
  rw [shapeCast_self]
  refine (Ideal.multiReduction_add_single _ _ _ _ _ (ix2 r s)).trans ?_
  refine Finset.sum_congr rfl fun k _ => ?_
  have e : reduces_S8x512x288_S8x288.lift (ix2 r s) k = ix3 r k s := by
    funext a; apply Fin.ext
    match a with
    | ⟨0, _⟩ => rfl
    | ⟨1, _⟩ => rfl
    | ⟨2, _⟩ => rfl
  rw [mulf_apply, e]
  rfl

/-! ## The whole 256 × 288 array as one function of the 256 × 512 × 288 one -/

/-- Row r, site s: the squares of the 512 channels of row r at site s, added. -/
def rowEnergy (A : S256x512x288.Idx → EReal) (r : Fin 256) (s : Fin 288) : EReal :=
  ∑ k : Fin 512, A (ix3 r k s) * A (ix3 r k s)

/-- The same as an array over the 256 × 288 index set. -/
def energyArr (A : S256x512x288.Idx → EReal) : S256x288.Idx → EReal := fun i => rowEnergy A (i 0) (i 1)

theorem energyArr_ix2 (A : S256x512x288.Idx → EReal) (r : Fin 256) (s : Fin 288) :
    energyArr A (ix2 r s) = rowEnergy A r s := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: both windows' blocks move along the rows with the point and stay at 0 on
    every other axis. -/
theorem idx_facts : ∀ t : Fin cfg0.N, win0_0.index t (0 : Fin 3) = t.val
    ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- A block whose rows are rows 8T … 8T + 7 of the array gives, through the payload, rows 8T … 8T + 7 of the
    energy array. -/
theorem block_energy (A : S256x512x288.Idx → EReal) (x0 : Vec Ideal S8x512x288 .f32) (T : Nat)
    (hx : ∀ (r : Fin 8) (k : Fin 512) (s : Fin 288) (R : Fin 256), R.val = T * 8 + r.val → x0 (ix3 r k s) = A (ix3 R k s))
    (j : S8x288.Idx) (i : S256x288.Idx) (h0 : (i 0).val = T * 8 + (j 0).val) (h1 : (i 1).val = (j 1).val) :
    k0_pay1 (F := Ideal) x0 j = energyArr A i := by
  obtain ⟨r, s, rfl⟩ : ∃ (r : Fin 8) (s : Fin 288), j = ix2 r s := ⟨j 0, j 1, eq_ix2 j⟩
  obtain ⟨R, S, rfl⟩ : ∃ (R : Fin 256) (S : Fin 288), i = ix2 R S := ⟨i 0, i 1, eq_ix2 i⟩
  have hS : S = s := Fin.ext h1
  subst hS
  rw [pay_apply, energyArr_ix2]
  unfold rowEnergy
  exact Finset.sum_congr rfl fun k _ => by rw [hx r k S R h0]

/-! ## From the blocks to the array -/

/-- Point t's input block is rows 8t … 8t + 7 of the 256 × 512 × 288 array as the region finds it. -/
theorem iblk0_apply (V : (c : Dev nD) → (b : Ref sig .tc) → Buf (Elt Ideal) ((c : Thread nD τ).loc b))
    (c : Dev nD) (t : Fin cfg0.N) (r : Fin 8) (k : Fin 512) (s : Fin 288) (R : Fin 256) (hR : R.val = t.val * 8 + r.val) :
    (iblk0 V c 0 t : Vec Ideal S8x512x288 .f32) (ix3 r k s) = (V c main_v0 : S256x512x288.Idx → EReal) (ix3 R k s) := by
  obtain ⟨e0, e1, e2, -, -⟩ := idx_facts t
  unfold iblk0
  rw [View.read_apply]
  show V c main_v0 _ = V c main_v0 _
  congr 1
  funext a
  apply Fin.ext
  match a with
  | ⟨0, _⟩ => show win0_0.index t (0 : Fin 3) * 8 + 1 * r.val = R.val; rw [e0, hR]; omega
  | ⟨1, _⟩ => show win0_0.index t (1 : Fin 3) * 512 + 1 * k.val = k.val; rw [e1]; omega
  | ⟨2, _⟩ => show win0_0.index t (2 : Fin 3) * 288 + 1 * s.val = s.val; rw [e2]; omega

/-- What point t writes back is block t of the energy array of the 256 × 512 × 288 array as the region finds it. -/
theorem flushed_eq (c : Dev nD) (t : Fin cfg0.N) :
    (dat0 (V1 m ρ) c).flushed 1 t
      = ((cfg0.win 1).blk t).view.read (Elt Ideal) (energyArr (V1 m ρ c main_v0)) := by
  show (cfg0.win 1).cut (grid0.coords t) ((dat0 (V1 m ρ) c).after 1 t) = _
  rw [after0_1]
  unfold out0_1
  rw [View.canon_unit_zero hz2]
  simp only [View.ld_unit_zero (S := S8x512x288) hz3]
  obtain ⟨-, -, -, e3, e4⟩ := idx_facts t
  funext j
  refine block_energy (V1 m ρ c main_v0) (iblk0 (V1 m ρ) c 0 t) t.val
    (fun r k s R hR => iblk0_apply (V1 m ρ) c t r k s R hR)
    ((cfg0.win 1).xinj (grid0.coords t) j) (((cfg0.win 1).blk t).view.emb j) ?_ ?_
  · show win0_1.index t (0 : Fin 2) * 8 + 1 * (j 0).val = t.val * 8 + (j 0).val
    rw [e3]; omega
  · show win0_1.index t (1 : Fin 2) * 288 + 1 * (j 1).val = (j 1).val
    rw [e4]; omega

/-- An index of the 256 × 288 array is in point t's block iff each coordinate is in the block's range on its axis. -/
theorem mem_blk (t : Fin cfg0.N) (i : S256x288.Idx) :
    i ∈ ((cfg0.win 1).blk t).view.set ↔ ∀ a : Fin 2, win0_1.index t a * S8x288.size a ≤ (i a).val ∧ (i a).val < win0_1.index t a * S8x288.size a + S8x288.size a := by
  show i ∈ ((View.whole main_v1).slice (win0_1.rect t)).set ↔ _
  rw [View.set_slice_whole, Rect.mem_set_unit]
  exact Iff.rfl

/-- Row r of the array is in the block of point r / 8, which writes it back. -/
theorem cover (i : S256x288.Idx) :
    ∃ t : Fin cfg0.N, (cfg0.win 1).flush t = true ∧ i ∈ ((cfg0.win 1).blk t).view.set := by
  have hi0 : (i 0).val < 256 := (i 0).isLt
  have hi1 : (i 1).val < 288 := (i 1).isLt
  have hN : grid0.N = 32 := N_0
  have ht : (i 0).val / 8 < cfg0.N := by show (i 0).val / 8 < grid0.N; rw [hN]; omega
  obtain ⟨-, -, -, e3, e4⟩ := idx_facts ⟨(i 0).val / 8, ht⟩
  refine ⟨⟨(i 0).val / 8, ht⟩, flush0_1 _, ?_⟩
  rw [mem_blk]
  intro a
  match a with
  | ⟨0, _⟩ =>
    show win0_1.index ⟨(i 0).val / 8, ht⟩ (0 : Fin 2) * 8 ≤ (i 0).val ∧ (i 0).val < win0_1.index ⟨(i 0).val / 8, ht⟩ (0 : Fin 2) * 8 + 8
    rw [e3]; show (i 0).val / 8 * 8 ≤ (i 0).val ∧ (i 0).val < (i 0).val / 8 * 8 + 8; omega
  | ⟨1, _⟩ =>
    show win0_1.index ⟨(i 0).val / 8, ht⟩ (1 : Fin 2) * 288 ≤ (i 1).val ∧ (i 1).val < win0_1.index ⟨(i 0).val / 8, ht⟩ (1 : Fin 2) * 288 + 288
    rw [e4]; omega

/-- The 256 × 288 array after the first region: the energy array of the 256 × 512 × 288 array the region found. -/
theorem arr_energy (c : Dev nD) :
    (dat0 (V1 m ρ) c).arrAt 1 cfg0.N = energyArr (V1 m ρ c main_v0) :=
  (dat0 (V1 m ρ) c).arrAt_eq_of_cover 1 (energyArr (V1 m ρ c main_v0)) (fun t _ => flushed_eq m ρ c t) cover

/-! ## The two host reshapes, read at an index -/

/-- The first region finds the input reshaped: 32 × 8 × 512 × 24 × 12 read as 256 × 512 × 288. -/
theorem V1_main_v0 (c : Dev nD) :
    (V1 m ρ c main_v0 : S256x512x288.Idx → EReal)
      = shapeCast S256x512x288 (m ((c : Thread nD τ).loc main_arg0) : S32x8x512x24x12.Idx → EReal)
          shapeCasts_S32x8x512x24x12_S256x512x288 := by
  show StableHlo.after hostOps0 (W0 m ρ c) (Proc.devRef .tc main_v0) = _
  after_results
  rfl

/-- Row 8 b + p, channel k, site s of the reshaped input is sample b, part p, channel k, map position
    (s / 12, s % 12) of the input. -/
theorem V1_main_v0_apply (c : Dev nD) (b : Fin 32) (p : Fin 8) (k : Fin 512) (s : Fin 288) (R : Fin 256)
    (hR : R.val = 8 * b.val + p.val) :
    (V1 m ρ c main_v0 : S256x512x288.Idx → EReal) (ix3 R k s)
      = (m ((c : Thread nD τ).loc main_arg0) : S32x8x512x24x12.Idx → EReal)
          (ix5 b p k (Cert.Sep.siteRow s) (Cert.Sep.siteCol s)) := by
  rw [V1_main_v0]
  refine shapeCast_apply _ _ _ _ ?_
  show (S32x8x512x24x12.rowMajor (ix5 b p k (Cert.Sep.siteRow s) (Cert.Sep.siteCol s))).val
    = (S256x512x288.rowMajor (ix3 R k s)).val
  rw [Shape.rowMajor_val_five, Shape.rowMajor_val_three]
  show (((b.val * 8 + p.val) * 512 + k.val) * 24 + s.val / 12) * 12 + s.val % 12 = (R.val * 512 + k.val) * 288 + s.val
  rw [hR]
  omega

/-- The second region finds the 256 × 288 array the first one left, reshaped to 32 × 8 × 288. -/
theorem V3_main_v2_eq (c : Dev nD) :
    (V3 m ρ c main_v2 : S32x8x288.Idx → EReal)
      = shapeCast S32x8x288 ((dat0 (V1 m ρ) c).arrAt 1 cfg0.N : S256x288.Idx → EReal) shapeCasts_S256x288_S32x8x288 := by
  show StableHlo.after hostOps1 (W2 m ρ c) (Proc.devRef .tc main_v2) = _
  after_results
  rw [show W2 m ρ c (Proc.devRef .tc main_v1) = (dat0 (V1 m ρ) c).arrAt 1 cfg0.N from W2_arr m ρ c 1]
  rfl

/-- What the first kernel region and the reshapes around it leave for the second region: the energy map. -/
theorem V3_main_v2 (c : Dev nD) (b : Fin 32) (p : Fin 8) (s : Fin 288) :
    V3 (F := Ideal) m ρ c main_v2 (ix3 b p s) = Cert.Sep.energy (m ((c.tc : Thread nD τ).loc main_arg0)) b p s := by
  have hR : 8 * b.val + p.val < 256 := by have := b.isLt; have := p.isLt; omega
  show @Eq EReal ((V3 (F := Ideal) m ρ c main_v2 : S32x8x288.Idx → EReal) (ix3 b p s)) _
  rw [V3_main_v2_eq, arr_energy]
  refine (shapeCast_apply _ _ (ix3 b p s) (ix2 ⟨8 * b.val + p.val, hR⟩ s) ?_).trans ?_
  · rw [Shape.rowMajor_val_two, Shape.rowMajor_val_three]
    show (8 * b.val + p.val) * 288 + s.val = (b.val * 8 + p.val) * 288 + s.val
    omega
  · rw [energyArr_ix2]
    unfold rowEnergy Cert.Sep.energy
    exact Finset.sum_congr rfl fun k _ => by rw [V1_main_v0_apply m ρ c b p k s ⟨8 * b.val + p.val, hR⟩ rfl]

end Cert.KernelIdeal.EnergyRegion
end
-- ==== Proof.KernelValue.lean ====
/-
  The kernel program's result is the score of the input's energy map.

  The run's fold names the result as the sum over the samples of what the second region's body leaves at (b, 0); that body, read
  at an index, is the ratio of the array it is entered with; and that array, left by the first region and the reshapes around
  it, is the energy map of the input. Chained, the result is the score.
-/
import proofs.«155840_j46866683133955_1_alg».proof.Proof.Spec
import proofs.«155840_j46866683133955_1_alg».proof.Proof.ResultSum
import proofs.«155840_j46866683133955_1_alg».proof.Proof.PairBody
import proofs.«155840_j46866683133955_1_alg».proof.Proof.EnergyRegion

noncomputable section

namespace Cert.KernelIdeal.KernelValue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result buffer at the end of the run is the score of the energy map of the first argument. -/
theorem result_score (c : Dev nD) (i : S_.Idx) :
    W5 (F := Ideal) m ρ c (Proc.devRef .tc main_v4) i
      = Cert.Sep.score (Cert.Sep.energy (m ((c.tc : Thread nD τ).loc main_arg0))) := by
  refine (ResultSum.result_sum m ρ c i).trans ?_
  show @Eq EReal (∑ b : Fin 32, out1_1 (F := Ideal) (V3 (F := Ideal) m ρ c main_v2) (ix2 b (0 : Fin 1))) _
  unfold Cert.Sep.score
  refine Finset.sum_congr rfl fun b _ => ?_
  refine (PairBody.out1_1_apply _ b 0).trans ?_
  refine congrArg (fun E => Cert.Sep.ratio E b) ?_
  funext b' p s
  exact EnergyRegion.V3_main_v2 m ρ c b' p s

end Cert.KernelIdeal.KernelValue

end
-- ==== Proof.RefScore.lean ====
/-
  The reference program computes the separation score.

  Read one element at a time, the reference's stages are these functions of the input x[b, p, c, h, w]:
    * the square of x summed over the 512 channels, then the 24 × 12 map flattened row-major to 288 sites: at (b, p, s)
      this is the channel energy E[b, p, s], because site s sits at row s / 12, column s % 12;
    * the sum over the sites of E², its square root, the larger of that and the floor word: the clamped norm N[b, p],
      and E / N is the unit map U[b, p, s];
    * U laid out once along a new second part axis and once along a new first one, the smaller of the two taken and
      summed over the sites: the overlap O[b, j, k] = Σ_s min U[b, j, s] U[b, k, s];
    * an 8 × 8 table that holds 0 where row + 0 ≥ column (a signed comparison of two positions below 8, so the plain
      order of j and k) and 1 elsewhere: 1 exactly where j < k; O times it is O where j < k and 0 elsewhere, since
      a · 1 = a and a · 0 = 0 on the extended reals;
    * the sums over BOTH part axes of that product, and over the part and site axes of U. A sum over the last two axes
      of a rank-3 array collects, at b, the indices whose first coordinate is b; a rank-3 index is its three
      coordinates, so the collected sum is the double sum over the other two: the pair sum P[b] and the mass M[b];
    * P / max M floor, summed over the 32 samples: the score.
  Each initial value of a sum is the word of 0.0, which is the extended real 0 and drops out.
-/
import proofs.«155840_j46866683133955_1_alg».proof.Proof.Spec
import proofs.«155840_j46866683133955_1_alg».proof.Proof.Gen.ReferenceIdeal.Read

noncomputable section

namespace Cert.ReferenceIdeal.RefScore

open Cert.ReferenceIdeal Cert.ReferenceIdeal.Gen Cert.ReferenceIdeal.Read Idealize.ShloMosaic Idealize.ShloMosaic.ValueIdx Idealize.ShloMosaic.StableHlo

/-! ## The energy: squares summed over the channels, read at a site -/

/-- The input, as a function on the rank-5 index set. -/
abbrev Inp := (⟨S32x8x512x24x12, .f32⟩ : BufTy).Contents (Elt Ideal)

theorem v0_at (x : Inp) (i : S32x8x512x24x12.Idx) : val_main_v0 (F := Ideal) x i = x i * x i := rfl

theorem idx_v1_v2 (b : Fin 32) (p : Fin 8) (s : Fin 288) (c : Fin 512) :
    idx_main_v1 (idx_main_v2 (ix3 b p s)) c = ix5 b p c (Cert.Sep.siteRow s) (Cert.Sep.siteCol s) := by
  have hb := b.isLt; have hp := p.isLt; have hs := s.isLt
  funext a
  refine Fin.ext ?_
  match a with
  | ⟨0, _⟩ => show ((b.val * 8 + p.val) * 288 + s.val) / 2304 = b.val; omega
  | ⟨1, _⟩ => show ((b.val * 8 + p.val) * 288 + s.val) / 288 % 8 = p.val; omega
  | ⟨2, _⟩ => rfl
  | ⟨3, _⟩ => show ((b.val * 8 + p.val) * 288 + s.val) / 12 % 24 = s.val / 12; omega
  | ⟨4, _⟩ => show ((b.val * 8 + p.val) * 288 + s.val) % 12 = s.val % 12; omega

theorem v2_energy (x : Inp) (b : Fin 32) (p : Fin 8) (s : Fin 288) :
    val_main_v2 (F := Ideal) x (ix3 b p s) = Cert.Sep.energy x b p s := by
  rw [val_main_v2_apply, val_main_v1_apply, val_main_cst_apply, Ideal.ofBits_def, Ideal.ofBits_zero_f32, zero_add]
  unfold Cert.Sep.energy
  refine Finset.sum_congr rfl fun c _ => ?_
  rw [v0_at, idx_v1_v2]

/-! ## The clamped norm and the unit map -/

theorem idx_v4 (b : Fin 32) (p : Fin 8) (k : Fin 288) : idx_main_v4 (ix2 b p) k = ix3 b p k := by
  funext a; refine Fin.ext ?_
  match a with
  | ⟨0, _⟩ => rfl
  | ⟨1, _⟩ => rfl
  | ⟨2, _⟩ => rfl

theorem v4_at (x : Inp) (b : Fin 32) (p : Fin 8) :
    val_main_v4 (F := Ideal) x (ix2 b p)
      = ∑ s : Fin 288, Cert.Sep.energy x b p s * Cert.Sep.energy x b p s := by
  rw [val_main_v4_apply, val_main_cst_0_apply, Ideal.ofBits_def, Ideal.ofBits_zero_f32, zero_add]
  refine Finset.sum_congr rfl fun k _ => ?_
  rw [val_main_v3_apply, idx_v4, v2_energy, Ideal.mulf_def]

theorem idx_v5_v9 (b : Fin 32) (p : Fin 8) (s : Fin 288) : idx_main_v5 (idx_main_v9 (ix3 b p s)) = ix2 b p := by
  funext a; refine Fin.ext ?_
  match a with
  | ⟨0, _⟩ => rfl
  | ⟨1, _⟩ => rfl

theorem v9_norm (x : Inp) (b : Fin 32) (p : Fin 8) (s : Fin 288) :
    val_main_v9 (F := Ideal) x (ix3 b p s) = Cert.Sep.norm (Cert.Sep.energy x) b p := by
  rw [val_main_v9_apply, val_main_v8_apply, val_main_v6_apply, val_main_v5_apply, idx_v5_v9, v4_at,
    val_main_v7_apply, val_main_cst_1_apply, Ideal.ofBits_def, Ideal.hostUnary_sqrt_def, Ideal.maximumf_def]
  rfl

theorem v10_unit (x : Inp) (b : Fin 32) (p : Fin 8) (s : Fin 288) :
    val_main_v10 (F := Ideal) x (ix3 b p s) = Cert.Sep.unit (Cert.Sep.energy x) b p s := by
  rw [val_main_v10_apply, v2_energy, v9_norm, Ideal.hostDivf_def]
  rfl

/-! ## The overlap of two parts -/

theorem idx_v11_v13_v16 (b : Fin 32) (j k : Fin 8) (s : Fin 288) :
    idx_main_v11 (idx_main_v13 (idx_main_v16 (ix3 b j k) s)) = ix3 b j s := by
  funext a; refine Fin.ext ?_
  match a with
  | ⟨0, _⟩ => rfl
  | ⟨1, _⟩ => rfl
  | ⟨2, _⟩ => rfl

theorem idx_v12_v14_v16 (b : Fin 32) (j k : Fin 8) (s : Fin 288) :
    idx_main_v12 (idx_main_v14 (idx_main_v16 (ix3 b j k) s)) = ix3 b k s := by
  funext a; refine Fin.ext ?_
  match a with
  | ⟨0, _⟩ => rfl
  | ⟨1, _⟩ => rfl
  | ⟨2, _⟩ => rfl

theorem v16_overlap (x : Inp) (b : Fin 32) (j k : Fin 8) :
    val_main_v16 (F := Ideal) x (ix3 b j k) = Cert.Sep.overlap (Cert.Sep.energy x) b j k := by
  rw [val_main_v16_apply, val_main_cst_2_apply, Ideal.ofBits_def, Ideal.ofBits_zero_f32, zero_add]
  unfold Cert.Sep.overlap
  refine Finset.sum_congr rfl fun s _ => ?_
  rw [val_main_v15_apply, val_main_v13_apply, val_main_v11_apply, idx_v11_v13_v16, v10_unit,
    val_main_v14_apply, val_main_v12_apply, idx_v12_v14_v16, v10_unit, Ideal.minimumf_def]

/-! ## The table that is 1 strictly above the diagonal, and the overlaps it keeps -/

/-- The word of 1.0 is the extended real 1. -/
theorem ofBits_one_f32 : Ideal.ofBits .f32 0x3F800000#32 = 1 := IdealRules.sign_bit.ideal_onePat .f32

/-- The signed test "row + 0 ≥ column" on two positions below 8: it holds exactly when the column is not past the row. -/
theorem triu_bit (j k : Fin 8) :
    IntOp.cmpi .sge (IntOp.addi (BitVec.ofNat 32 j.val) 0#32) (BitVec.ofNat 32 k.val) = if j < k then 0#1 else 1#1 := by
  revert j k; decide

theorem v18_mask (j k : Fin 8) :
    val_main_v18 (F := Ideal) (ix2 j k) = if j < k then (1 : EReal) else 0 := by
  rw [val_main_v18_apply, val_main_call0_v4_apply, val_main_call0_v2_apply, val_main_call0_v0_apply,
    val_main_call0_v1_apply, val_main_call0_c_apply, val_main_call0_v3_apply, val_main_call0_v5_apply,
    val_main_call0_cst_apply, val_main_v17_apply, val_main_cst_3_apply, Ideal.ofBits_def, Ideal.ofBits_def,
    Ideal.ofBits_zero_f32, ofBits_one_f32]
  show Scalar.select (IntOp.cmpi .sge (IntOp.addi (BitVec.ofNat 32 j.val) 0#32) (BitVec.ofNat 32 k.val)) (0 : EReal) 1 = _
  rw [triu_bit]
  by_cases h : j < k
  · rw [if_pos h, if_pos h, select_zero]
  · rw [if_neg h, if_neg h, select_one]

theorem idx_v19_v20 (b : Fin 32) (j k : Fin 8) : idx_main_v19 (idx_main_v20 (ix3 b j k)) = ix2 j k := by
  funext a; refine Fin.ext ?_
  match a with
  | ⟨0, _⟩ => rfl
  | ⟨1, _⟩ => rfl

theorem v21_at (x : Inp) (b : Fin 32) (j k : Fin 8) :
    val_main_v21 (F := Ideal) x (ix3 b j k)
      = if j < k then Cert.Sep.overlap (Cert.Sep.energy x) b j k else 0 := by
  rw [val_main_v21_apply, v16_overlap, val_main_v20_apply, val_main_v19_apply, idx_v19_v20, v18_mask, Ideal.mulf_def]
  by_cases h : j < k
  · rw [if_pos h, if_pos h, mul_one]
  · rw [if_neg h, if_neg h, mul_zero]

/-! ## A sum over the last two axes of a rank-3 array -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ p : Fin n1, ∑ q : Fin n2, f (ix3 a p q) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the last two axes of (a, p, q) leaves a (the one kept axis is the first, whatever the extents). -/
theorem drop12_val {n0 n1 n2 : Nat} (h : (⟨3, ![n0, n1, n2]⟩ : Shape).ReducesTo [1, 2] ⟨1, ![n0]⟩)
    (a : Fin n0) (p : Fin n1) (q : Fin n2) : (h.drop (ix3 a p q) 0 : Nat) = a.val := rfl

/-- So the index drops to b exactly when a = b. -/
theorem drop12_eq_iff {n0 n1 n2 : Nat} (h : (⟨3, ![n0, n1, n2]⟩ : Shape).ReducesTo [1, 2] ⟨1, ![n0]⟩)
    (a b : Fin n0) (p : Fin n1) (q : Fin n2) : h.drop (ix3 a p q) = ix1 b ↔ a = b := by
  have hv := drop12_val h a p q
  constructor
  · intro e
    refine Fin.ext ?_
    rw [← hv, e]
    rfl
  · intro e
    subst e
    funext d
    refine Fin.ext ?_
    match d with
    | ⟨0, _⟩ => exact hv

/-- The host's float sum over the last two axes of a rank-3 array, at the ideal values: the initial value plus the
    double sum over the two dropped coordinates. -/
theorem hostReduceAdd_axes12 {n0 n1 n2 : Nat} (h : (⟨3, ![n0, n1, n2]⟩ : Shape).ReducesTo [1, 2] ⟨1, ![n0]⟩)
    (y : (⟨3, ![n0, n1, n2]⟩ : Shape).Idx → EReal) (init : EReal) (b : Fin n0) :
    Ideal.hostReduceAdd h y init (ix1 b) = init + ∑ p : Fin n1, ∑ q : Fin n2, y (ix3 b p q) := by
  unfold Ideal.hostReduceAdd
  refine congrArg (init + ·) ?_
  rw [Finset.sum_filter, sum_idx3, Finset.sum_eq_single b]
  · refine Finset.sum_congr rfl fun p _ => Finset.sum_congr rfl fun q _ => ?_
    rw [if_pos ((drop12_eq_iff h b b p q).mpr rfl)]
  · intro a _ hab
    refine Finset.sum_eq_zero fun p _ => Finset.sum_eq_zero fun q _ => ?_
    rw [if_neg (fun e => hab ((drop12_eq_iff h a b p q).mp e))]
  · intro hb
    exact absurd (Finset.mem_univ b) hb

/-! ## Pair sum, mass, ratio, and the score -/

theorem v22_pairSum (x : Inp) (b : Fin 32) :
    val_main_v22 (F := Ideal) x (ix1 b) = Cert.Sep.pairSum (Cert.Sep.energy x) b := by
  unfold val_main_v22
  simp only [Host.reduceAdd, Ideal.hostReduceAdd_def]
  rw [hostReduceAdd_axes12, val_main_cst_4_apply, Ideal.ofBits_def, Ideal.ofBits_zero_f32, zero_add]
  unfold Cert.Sep.pairSum
  refine Finset.sum_congr rfl fun j _ => Finset.sum_congr rfl fun k _ => ?_
  exact v21_at x b j k

theorem v23_mass (x : Inp) (b : Fin 32) :
    val_main_v23 (F := Ideal) x (ix1 b) = Cert.Sep.mass (Cert.Sep.energy x) b := by
  unfold val_main_v23
  simp only [Host.reduceAdd, Ideal.hostReduceAdd_def]
  rw [hostReduceAdd_axes12, val_main_cst_5_apply, Ideal.ofBits_def, Ideal.ofBits_zero_f32, zero_add]
  unfold Cert.Sep.mass
  refine Finset.sum_congr rfl fun p _ => Finset.sum_congr rfl fun s _ => ?_
  exact v10_unit x b p s

theorem v26_ratio (x : Inp) (b : Fin 32) :
    val_main_v26 (F := Ideal) x (ix1 b) = Cert.Sep.ratio (Cert.Sep.energy x) b := by
  rw [val_main_v26_apply, v22_pairSum, val_main_v25_apply, v23_mass, val_main_v24_apply, val_main_cst_6_apply,
    Ideal.ofBits_def, Ideal.maximumf_def, Ideal.hostDivf_def]
  rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- THE REFERENCE'S RESULT IS THE SCORE: its one element is the separation score of the input's channel energies. -/
theorem val_main_v27_score (x : (⟨S32x8x512x24x12, .f32⟩ : BufTy).Contents (Elt Ideal)) :
    Cert.ReferenceIdeal.Read.val_main_v27 (F := Ideal) x = fun _ => Cert.Sep.score (Cert.Sep.energy x) := by
  funext i
  rw [val_main_v27_apply, val_main_cst_7_apply, Ideal.ofBits_def, Ideal.ofBits_zero_f32, zero_add, sum_idx1]
  unfold Cert.Sep.score
  exact Finset.sum_congr rfl fun b _ => v26_ratio x b

end Cert.ReferenceIdeal.RefScore

end
-- ==== Proof.lean ====
/-
  The certificate: the Pallas program (two kernel regions: a channel-energy reduction over a grid of 32 blocks of 8 rows, then
  one whole-array body that normalises each part's map, adds up the 28 pairwise min-overlaps and divides by the clamped mass;
  a host sum of the 32 ratios) against the jnp reference (the same energy, norm and unit maps; the 8 × 8 matrix of overlaps
  multiplied by the strict upper triangle's 0/1 mask and summed; the same clamp, quotient and final sum).

  Both programs compute, on the extended reals, the one function `Cert.Sep.score (Cert.Sep.energy x)` of the first argument:
  the two differ only in how sums are grouped (blocks of rows, one axis or two at a time, a running accumulator from zero against a
  masked double sum), and sums on the extended reals commute and associate, a product with the word 1 is the other factor and
  with the word 0 is 0. No finiteness of the input is used. The three frames are the generated ones (the reference's is its
  generated run with the result dropped); the idealization rewrote nothing, so `preserves` is `True`.
-/
import proofs.«155840_j46866683133955_1_alg».proof.Defs
import proofs.«155840_j46866683133955_1_alg».proof.Proof.Gen.Kernel
import proofs.«155840_j46866683133955_1_alg».proof.Proof.Gen.Kernel.Skeleton
import proofs.«155840_j46866683133955_1_alg».proof.Proof.Gen.Kernel.Launch
import proofs.«155840_j46866683133955_1_alg».proof.Proof.Gen.Kernel.Points
import proofs.«155840_j46866683133955_1_alg».proof.Proof.Gen.Kernel.Frame
import proofs.«155840_j46866683133955_1_alg».proof.Proof.Gen.KernelIdeal
import proofs.«155840_j46866683133955_1_alg».proof.Proof.Gen.KernelIdeal.Skeleton
import proofs.«155840_j46866683133955_1_alg».proof.Proof.Gen.KernelIdeal.Launch
import proofs.«155840_j46866683133955_1_alg».proof.Proof.Gen.KernelIdeal.Points
import proofs.«155840_j46866683133955_1_alg».proof.Proof.Gen.KernelIdeal.Frame
import proofs.«155840_j46866683133955_1_alg».proof.Proof.Gen.ReferenceIdeal
import proofs.«155840_j46866683133955_1_alg».proof.Proof.Gen.ReferenceIdeal.Run
import proofs.«155840_j46866683133955_1_alg».proof.Proof.Gen.ReferenceIdeal.Read
import proofs.«155840_j46866683133955_1_alg».proof.Proof.Gen.Pre_finite_inputs
import proofs.«155840_j46866683133955_1_alg».proof.Proof.Spec
import proofs.«155840_j46866683133955_1_alg».proof.Proof.KernelRun
import proofs.«155840_j46866683133955_1_alg».proof.Proof.KernelValue
import proofs.«155840_j46866683133955_1_alg».proof.Proof.RefScore
import Idealize.ShloMosaic.Adequacy
import Idealize.ShloMosaic.Init

noncomputable section

namespace Cert.Proof

open Idealize.ShloMosaic Idealize.ShloMosaic.TcCoe Idealize.SL.Sem

/-- The word-level program runs and keeps its arguments: the generated frame. -/
theorem frame_k : Cert.frame_Kernel := fun m ρ _ => Cert.Kernel.Gen.frame m ρ

/-- The idealized program runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the score of the first argument's energy map. -/
theorem algebraic : Cert.algebraic_KernelIdeal_ReferenceIdeal := by
  intro m ρ m' ρ' _ hagree
  refine ⟨fun c _ => Cert.Sep.score (Cert.Sep.energy (m ((c.tc : Thread Cert.KernelIdeal.nD Cert.KernelIdeal.τ).loc Cert.KernelIdeal.main_arg0))), ?_, ?_⟩
  · exact (θ_run Cert.KernelIdeal.defs _ _).mono
      (fun _ h c => ⟨(h c).1.trans (funext fun i => Cert.KernelIdeal.KernelValue.result_score m ρ c i), (h c).2.1, (h c).2.2⟩)
      (Cert.KernelIdeal.Run.run_result (F := Ideal) m ρ)
  · refine (θ_run Cert.ReferenceIdeal.defs _ _).mono (fun _ h c => ⟨(h c).1.trans ?_, (h c).2.1, (h c).2.2⟩)
      (Cert.ReferenceIdeal.Value.run (F := Ideal) m' ρ')
    rw [Cert.ReferenceIdeal.Read.val_main_v27_eq, Cert.ReferenceIdeal.RefScore.val_main_v27_score, (hagree c).1]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
